-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S64x256 : Shape := ⟨2, ![64, 256]⟩
abbrev S64 : Shape := ⟨1, ![64]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1x256x512x512 .f32) (main_arg1 : FVec F S64x256 .f32) (main_arg2 : FVec F S64x256 .f32) (main_arg3 : FVec F S64 .f32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1x256x512x512 : Shape := ⟨4, ![1, 256, 512, 512]⟩
abbrev S64x256 : Shape := ⟨2, ![64, 256]⟩
abbrev S64 : Shape := ⟨1, ![64]⟩
abbrev S256x262144 : Shape := ⟨2, ![256, 262144]⟩
abbrev S64x1 : Shape := ⟨2, ![64, 1]⟩
abbrev S256x8192 : Shape := ⟨2, ![256, 8192]⟩
abbrev S64x8192 : Shape := ⟨2, ![64, 8192]⟩
abbrev S8192 : Shape := ⟨1, ![8192]⟩
abbrev S1x8192 : Shape := ⟨2, ![1, 8192]⟩
abbrev S256 : Shape := ⟨1, ![256]⟩
abbrev S1x256 : Shape := ⟨2, ![1, 256]⟩

abbrev nBuf : Space → Nat
  | .hbm => 7
  | .vmem => 8
  | .smem => 0
  | _ => 0

abbrev bufTy : (tb : Table) → Fin (tcTables nBuf tb) → BufTy
  | .hbm, ⟨0, _⟩ => ⟨S1x256x512x512, .f32⟩
  | .hbm, ⟨1, _⟩ => ⟨S64x256, .f32⟩
  | .hbm, ⟨2, _⟩ => ⟨S64x256, .f32⟩
  | .hbm, ⟨3, _⟩ => ⟨S64, .f32⟩
  | .hbm, ⟨4, _⟩ => ⟨S256x262144, .f32⟩
  | .hbm, ⟨5, _⟩ => ⟨S64x1, .f32⟩
  | .hbm, ⟨6, _⟩ => ⟨S64x256, .f32⟩
  | .local _ .vmem, ⟨0, _⟩ => ⟨S256x8192, .f32⟩
  | .local _ .vmem, ⟨1, _⟩ => ⟨S256x8192, .f32⟩
  | .local _ .vmem, ⟨2, _⟩ => ⟨S64x256, .f32⟩
  | .local _ .vmem, ⟨3, _⟩ => ⟨S64x1, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x1, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v36 : BitVec 1 := Scalar.cmpi .eq arg0 c31_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S1x256x512x512_S256x262144 : S1x256x512x512.ShapeCasts S256x262144
  shapeCasts_S64_S64x1 : S64.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  bitsLt_bf16_f32 : FTy.bits .bf16 < FTy.bits .f32
  broadcasts_S64x1_S64x8192 : S64x1.Broadcasts S64x8192
  reduces_S64x8192_S8192 : S64x8192.Reduces [0] S8192
  shapeCasts_S8192_S1x8192 : S8192.ShapeCasts S1x8192
  broadcasts_S1x8192_S64x8192 : S1x8192.Broadcasts S64x8192
  reduces_S64x8192_S64 : S64x8192.Reduces [1] S64
  broadcasts_S64x1_S64x256 : S64x1.Broadcasts S64x256
  reduces_S64x256_S256 : S64x256.Reduces [0] S256
  shapeCasts_S256_S1x256 : S256.ShapeCasts S1x256
  broadcasts_S1x256_S64x256 : S1x256.Broadcasts S64x256
  reduces_S64x256_S64 : S64x256.Reduces [1] S64
  dot_S64x256_S256x8192_S64x8192_1_0_0_1_n_n_wf : DotDims.WF S64x256 S256x8192 S64x8192 [1] [0] [0] [1] [] []
  dot_S64x8192_S256x8192_S64x256_1_1_0_0_n_n_wf : DotDims.WF S64x8192 S256x8192 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x262144.size a
  hwx0_0 : ∀ i : grid0.Coords, EltTy.bits .f32 = 32 ∨ (Rect.block (s := S256x262144) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)

variable [Facts₀]

def dot_S64x256_S256x8192_S64x8192_1_0_0_1_n_n : DotDims S64x256 S256x8192 S64x8192 where
  lhsContracting := [1]
  rhsContracting := [0]
  lhsNonContracting := [0]
  rhsNonContracting := [1]
  lhsBatch := []
  rhsBatch := []
  wf := dot_S64x256_S256x8192_S64x8192_1_0_0_1_n_n_wf
def dot_S64x8192_S256x8192_S64x256_1_1_0_0_n_n : DotDims S64x8192 S256x8192 S64x256 where
  lhsContracting := [1]
  rhsContracting := [1]
  lhsNonContracting := [0]
  rhsNonContracting := [0]
  lhsBatch := []
  rhsBatch := []
  wf := dot_S64x8192_S256x8192_S64x256_1_1_0_0_n_n_wf

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x256x512x512 : Shape := ⟨4, ![1, 256, 512, 512]⟩
abbrev S64x256 : Shape := ⟨2, ![64, 256]⟩
abbrev S64 : Shape := ⟨1, ![64]⟩
abbrev S256x262144 : Shape := ⟨2, ![256, 262144]⟩
abbrev S64x262144 : Shape := ⟨2, ![64, 262144]⟩
abbrev S64x1 : Shape := ⟨2, ![64, 1]⟩
abbrev S_ : Shape := ⟨0, ![]⟩
abbrev S262144 : Shape := ⟨1, ![262144]⟩
abbrev S1x262144 : Shape := ⟨2, ![1, 262144]⟩
abbrev S256 : Shape := ⟨1, ![256]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S64x256, .f32⟩
  | .hbm, ⟨2, _⟩ => ⟨S64x256, .f32⟩
  | .hbm, ⟨3, _⟩ => ⟨S64, .f32⟩
  | .hbm, ⟨4, _⟩ => ⟨S256x262144, .f32⟩
  | .hbm, ⟨5, _⟩ => ⟨S64x262144, .f32⟩
  | .hbm, ⟨6, _⟩ => ⟨S64x1, .f32⟩
  | .hbm, ⟨7, _⟩ => ⟨S64x262144, .f32⟩
  | .hbm, ⟨8, _⟩ => ⟨S64x262144, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S262144, .f32⟩
  | .hbm, ⟨13, _⟩ => ⟨S262144, .f32⟩
  | .hbm, ⟨14, _⟩ => ⟨S1x262144, .f32⟩
  | .hbm, ⟨15, _⟩ => ⟨S64x262144, .f32⟩
  | .hbm, ⟨16, _⟩ => ⟨S64x262144, .f32⟩
  | .hbm, ⟨17, _⟩ => ⟨S64x262144, .f32⟩
  | .hbm, ⟨18, _⟩ => ⟨S_, .f32⟩
  | .hbm, ⟨19, _⟩ => ⟨S262144, .f32⟩
  | .hbm, ⟨20, _⟩ => ⟨S1x262144, .f32⟩
  | .hbm, ⟨21, _⟩ => ⟨S64x262144, .f32⟩
  | .hbm, ⟨22, _⟩ => ⟨S64x262144, .f32⟩
  | .hbm, ⟨23, _⟩ => ⟨S64x256, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x256, .f32⟩
  | .hbm, ⟨49, _⟩ => ⟨S64x256, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_call1_v2 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S1x256x512x512_S256x262144 : S1x256x512x512.ShapeCasts S256x262144
  bcast_S64_S64x1_0 : S64.BroadcastsInDim S64x1 (![0] : Fin 1 → Fin S64x1.rank)
  bcast_S64x1_S64x262144_0_1 : S64x1.BroadcastsInDim S64x262144 (![0, 1] : Fin 2 → Fin S64x262144.rank)
  reducesTo_S64x262144_S262144_d0 : S64x262144.ReducesTo [0] S262144
  h_S_ : 0 < S_.numel
  bcast_S_S262144 : S_.BroadcastsInDim S262144 (![] : Fin 0 → Fin S262144.rank)
  bcast_S262144_S1x262144_1 : S262144.BroadcastsInDim S1x262144 (![1] : Fin 1 → Fin S1x262144.rank)
  bcast_S1x262144_S64x262144_0_1 : S1x262144.BroadcastsInDim S64x262144 (![0, 1] : Fin 2 → Fin S64x262144.rank)
  reducesTo_S64x262144_S64_d1 : S64x262144.ReducesTo [1] S64
  bcast_S64x1_S64x256_0_1 : S64x1.BroadcastsInDim S64x256 (![0, 1] : Fin 2 → Fin S64x256.rank)
  reducesTo_S64x256_S256_d0 : S64x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S64x256_0_1 : S1x256.BroadcastsInDim S64x256 (![0, 1] : Fin 2 → Fin S64x256.rank)
  reducesTo_S64x256_S64_d1 : S64x256.ReducesTo [1] S64
  bcast_S_S64x1 : S_.BroadcastsInDim S64x1 (![] : Fin 0 → Fin S64x1.rank)
  dot_S64x256_S256x262144_S64x262144_1_0_0_1_n_n_wf : DotDims.WF S64x256 S256x262144 S64x262144 [1] [0] [0] [1] [] []
  dot_S64x262144_S256x262144_S64x256_1_1_0_0_n_n_wf : DotDims.WF S64x262144 S256x262144 S64x256 [1] [1] [0] [0] [] []

variable [Facts₀]

def dot_S64x256_S256x262144_S64x262144_1_0_0_1_n_n : DotDims S64x256 S256x262144 S64x262144 where
  lhsContracting := [1]
  rhsContracting := [0]
  lhsNonContracting := [0]
  rhsNonContracting := [1]
  lhsBatch := []
  rhsBatch := []
  wf := dot_S64x256_S256x262144_S64x262144_1_0_0_1_n_n_wf
def dot_S64x262144_S256x262144_S64x256_1_1_0_0_n_n : DotDims S64x262144 S256x262144 S64x256 where
  lhsContracting := [1]
  rhsContracting := [1]
  lhsNonContracting := [0]
  rhsNonContracting := [0]
  lhsBatch := []
  rhsBatch := []
  wf := dot_S64x262144_S256x262144_S64x256_1_1_0_0_n_n_wf

class Facts : Prop extends Facts₀ where

variable [Facts]
-- ==== Proof.KernelPieces.lean ====
/-
  What each control case of the kernel body leaves behind, as the body's pure values of what it loaded.

  The body has three cases. At the first grid point it zero-fills the two accumulators and then updates them, so
  each accumulator ends at the update applied to the zero fill. At a middle point it updates both accumulators
  from what the point before left. At the last point it does the same and then stores the output: the
  normalisation applied to the centres' block and to the two accumulators it has just updated. A store that
  covers the whole buffer from offset zero reads back as the stored value, and a load after such a store reads that value.
-/
import proofs.«172698_j82549271429466_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem hz : (![0, 0] : Fin 2 → Nat) = fun _ => 0 := funext fun a => by fin_cases a <;> rfl

/-- The first point leaves in the weighted-sum accumulator the update of the zero fill. -/
theorem first_acc (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S256x8192 .f32) (x1 : Vec F S64x256 .f32) (x2 : Vec F S64x1 .f32) (x3 : Vec F S64x256 .f32) :
    sout0_A_0 c i arg1 harg1 arg2 harg2 arg3 harg3 arg4 harg4 arg5 harg5 arg6 harg6 arg7 harg7 hc0 hc1 x0 x1 x2 x3 = k0_pay6 x0 x1 x2 (k0_pay2 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S64x256) hz, View.readCov_unit_zero (S := S64x256) _ hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

/-- The first point leaves in the assignment-total column the update of the zero fill. -/
theorem first_mass (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S256x8192 .f32) (x1 : Vec F S64x256 .f32) (x2 : Vec F S64x1 .f32) (x3 : Vec F S64x256 .f32) :
    sout0_A_1 c i arg1 harg1 arg2 harg2 arg3 harg3 arg4 harg4 arg5 harg5 arg6 harg6 arg7 harg7 hc0 hc1 x0 x1 x2 x3 = k0_pay7 x0 x1 x2 (k0_pay3 (F := F)) := by
  unfold sout0_A_1
  rw [View.read_writes_eq_canon _ _ _ (scover0_A_1 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S64x1) hz, View.readCov_unit_zero (S := S64x1) _ hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

/-- A middle point leaves in the weighted-sum accumulator the update of what the point before left. -/
theorem mid_acc (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S256x8192 .f32) (x1 : Vec F S64x256 .f32) (x2 : Vec F S64x1 .f32) (x3 : Vec F S64x256 .f32) (xs0 : Vec F S64x256 .f32) (xs1 : Vec F S64x1 .f32) :
    sout0_B_0 c i arg1 harg1 arg2 harg2 arg3 harg3 arg4 harg4 arg5 harg5 arg6 harg6 arg7 harg7 hc0 hc1 x0 x1 x2 x3 xs0 xs1 = k0_pay6 x0 x1 x2 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 xs0 xs1)]
  unfold kernelRun0_B
  dsimp only
  sl_unfold_words
  rw [View.canon_unit_zero (S := S64x256) hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

/-- A middle point leaves in the assignment-total column the update of what the point before left. -/
theorem mid_mass (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S256x8192 .f32) (x1 : Vec F S64x256 .f32) (x2 : Vec F S64x1 .f32) (x3 : Vec F S64x256 .f32) (xs0 : Vec F S64x256 .f32) (xs1 : Vec F S64x1 .f32) :
    sout0_B_1 c i arg1 harg1 arg2 harg2 arg3 harg3 arg4 harg4 arg5 harg5 arg6 harg6 arg7 harg7 hc0 hc1 x0 x1 x2 x3 xs0 xs1 = k0_pay7 x0 x1 x2 xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 x3 xs0 xs1)]
  unfold kernelRun0_B
  dsimp only
  sl_unfold_words
  rw [View.canon_unit_zero (S := S64x1) hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

/-- The last point updates the weighted-sum accumulator like a middle point. -/
theorem last_acc (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S256x8192 .f32) (x1 : Vec F S64x256 .f32) (x2 : Vec F S64x1 .f32) (x3 : Vec F S64x256 .f32) (xs0 : Vec F S64x256 .f32) (xs1 : Vec F S64x1 .f32) :
    sout0_C_0 c i arg1 harg1 arg2 harg2 arg3 harg3 arg4 harg4 arg5 harg5 arg6 harg6 arg7 harg7 hc0 hc1 x0 x1 x2 x3 xs0 xs1 = k0_pay6 x0 x1 x2 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero (S := S64x256) hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

/-- The last point updates the assignment-total column like a middle point. -/
theorem last_mass (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S256x8192 .f32) (x1 : Vec F S64x256 .f32) (x2 : Vec F S64x1 .f32) (x3 : Vec F S64x256 .f32) (xs0 : Vec F S64x256 .f32) (xs1 : Vec F S64x1 .f32) :
    sout0_C_1 c i arg1 harg1 arg2 harg2 arg3 harg3 arg4 harg4 arg5 harg5 arg6 harg6 arg7 harg7 hc0 hc1 x0 x1 x2 x3 xs0 xs1 = k0_pay7 x0 x1 x2 xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero (S := S64x1) hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

/-- The last point stores the normalisation of the centres and of the two accumulators it has just updated. -/
theorem last_out (c : Dev nD) (i : grid0.Coords) (arg1 : Memref sig .tc .vmem S256x8192 .f32) (harg1 : arg1.IsWhole) (arg2 : Memref sig .tc .vmem S64x256 .f32) (harg2 : arg2.IsWhole) (arg3 : Memref sig .tc .vmem S64x1 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S256x8192 .f32) (x1 : Vec F S64x256 .f32) (x2 : Vec F S64x1 .f32) (x3 : Vec F S64x256 .f32) (xs0 : Vec F S64x256 .f32) (xs1 : Vec F S64x1 .f32) :
    out0_C_4 c i arg1 harg1 arg2 harg2 arg3 harg3 arg4 harg4 arg5 harg5 arg6 harg6 arg7 harg7 hc0 hc1 x0 x1 x2 x3 xs0 xs1 = k0_pay1 x3 (k0_pay6 x0 x1 x2 xs0) (k0_pay7 x0 x1 x2 xs1) := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero (S := S64x256) hz]
  simp only [View.readAt_eq_ld, harg1.read_unread, harg2.read_unread, harg3.read_unread, harg4.read_unread, harg6.read_unread, harg7.read_unread,
    View.ld_unit_zero (S := S256x8192) hz, View.ld_unit_zero (S := S64x256) hz, View.ld_unit_zero (S := S64x1) hz,
    View.readCov_unit_zero (S := S64x256) _ hz, View.readCov_unit_zero (S := S64x1) _ hz]

end Cert.KernelIdeal.Pieces

end
-- ==== Proof.Spec.lean ====
/-
  The mathematics of the residual aggregation, free of any program: over a set of clusters, a set of
  feature coordinates and a set of positions, the soft assignment of every position to the clusters (a softmax
  down each column of the logits), the assignment-weighted sums of the features and of the assignments
  themselves, the residual against the cluster centres, and the two normalisations (each column by its length,
  then each row by its length, both lengths kept away from zero by a floor).

  Everything is stated on the extended reals with the operations a float operation denotes there. Two facts
  about sums are proved: a sum over all positions is the sum, block by block, of the sums inside the blocks
  (any bijection between block-and-offset pairs and positions will do), and a zero-started running sum of block
  contributions is the sum of the contributions so far. The soft assignment of a position depends only on
  that position's column, so computing it on a block of columns is computing it on the whole and looking at the
  block: this holds by unfolding, and is recorded as a lemma.
-/
import Idealize.ShloMosaic.PureOps.Ideal.Laws
import Idealize.ShloMosaic.Lib.ValueIdx

noncomputable section

namespace Cert.Vlad

open Idealize.ShloMosaic Idealize.ShloMosaic.ValueIdx

variable {κ δ ν : Type} [Fintype κ] [Fintype δ] [Fintype ν]

/-- The logit of cluster `k` at position `n`: row `k` of the weights against column `n` of the features, plus the bias. -/
def logit (w : κ → δ → EReal) (b : κ → EReal) (x : δ → ν → EReal) (k : κ) (n : ν) : EReal :=
  (∑ d, w k d * x d n) + b k

/-- The largest logit of column `n`, folded from the value `lo`. -/
def colMax (lo : EReal) (L : κ → ν → EReal) (n : ν) : EReal :=
  (Finset.univ : Finset κ).fold max lo (fun k => L k n)

/-- The exponential of a logit shifted by its column's largest. -/
def expShift (lo : EReal) (L : κ → ν → EReal) (k : κ) (n : ν) : EReal :=
  Ideal.exp (L k n - colMax lo L n)

/-- The soft assignment: the softmax down column `n`. -/
def assign (lo : EReal) (L : κ → ν → EReal) (k : κ) (n : ν) : EReal :=
  Ideal.div (expShift lo L k n) (∑ k', expShift lo L k' n)

/-- The assignment-weighted sum of feature `d` over all positions. -/
def agg (A : κ → ν → EReal) (x : δ → ν → EReal) (k : κ) (d : δ) : EReal := ∑ n, A k n * x d n

/-- The total assignment a cluster receives. -/
def mass (A : κ → ν → EReal) (k : κ) : EReal := ∑ n, A k n

/-- The residual against the centres: the weighted sum less the centre times the cluster's total assignment. -/
def resid (c acc : κ → δ → EReal) (ms : κ → EReal) (k : κ) (d : δ) : EReal := acc k d - c k d * ms k

/-- Each column divided by its length (the root of the sum of its squares), the length at least `eps`. -/
def colNormalize (eps : EReal) (V : κ → δ → EReal) (k : κ) (d : δ) : EReal :=
  Ideal.div (V k d) (max (Ideal.sqrt (∑ k', V k' d * V k' d)) eps)

/-- Each row divided by its length, the length at least `eps`. -/
def rowNormalize (eps : EReal) (V : κ → δ → EReal) (k : κ) (d : δ) : EReal :=
  Ideal.div (V k d) (max (Ideal.sqrt (∑ d', V k d' * V k d')) eps)

/-- The two normalisations of the residual, from the accumulated sums. -/
def finish (eps : EReal) (c acc : κ → δ → EReal) (ms : κ → EReal) : κ → δ → EReal :=
  rowNormalize eps (colNormalize eps (resid c acc ms))

/-- The whole aggregation. -/
def vlad (lo eps : EReal) (w : κ → δ → EReal) (b : κ → EReal) (c : κ → δ → EReal) (x : δ → ν → EReal) : κ → δ → EReal :=
  finish eps c (agg (assign lo (logit w b x)) x) (mass (assign lo (logit w b x)))

/-- The soft assignment computed on a selection of the columns is the soft assignment of the whole, at the selected
    column: a column's softmax reads that column only. -/
theorem assign_cols {β : Type} (lo : EReal) (w : κ → δ → EReal) (b : κ → EReal) (x : δ → ν → EReal) (ι : β → ν) (k : κ) (j : β) :
    assign lo (logit w b (fun d j => x d (ι j))) k j = assign lo (logit w b x) k (ι j) := rfl

/-- A sum over all positions is the sum over the blocks of the sums inside each block. -/
theorem sum_blocks {τ β : Type} [Fintype τ] [Fintype β] (e : τ × β ≃ ν) (f : ν → EReal) :
    ∑ n, f n = ∑ t, ∑ j, f (e (t, j)) := by
  rw [← Equiv.sum_comp e f, Fintype.sum_prod_type]

/-- A running sum started from zero: after the first block it is that block's contribution, and each later block
    adds its own; so after block `n` it is the sum of the contributions of blocks `0 … n`. -/
theorem running_sum (P : ℕ → EReal) (a : ℕ → EReal) (h0 : a 0 = 0 + P 0) (hs : ∀ n, a (n + 1) = a n + P (n + 1)) (n : ℕ) :
    a n = ∑ s ∈ Finset.range (n + 1), P s := by
  induction n with
  | zero => rw [h0, zero_add, Finset.sum_range_one]
  | succ n ih => rw [hs, ih, Finset.sum_range_succ _ (n + 1)]

/-! ## The aggregation over the programs' arrays -/

/-- The value the column maxima are folded from: the float pattern of minus infinity. -/
abbrev lo : EReal := Ideal.ofBits .f32 0xFF800000#32

/-- The floor of the two lengths: the float nearest to 1e-12, as its exact binary value. -/
abbrev eps : EReal := Ideal.ofBits .f32 0x2B8CBCCC#32

/-- The result array as one function of the four argument arrays: the features `[1, 256, 512, 512]` read as
    `[256, 262144]` (256 coordinates at 262144 positions), the centres `[64, 256]`, the weights `[64, 256]` and the
    bias `[64]`; entry `(k, d)` is the normalised residual of cluster `k` at coordinate `d`. -/
def G (h : (⟨4, ![1, 256, 512, 512]⟩ : Shape).ShapeCasts ⟨2, ![256, 262144]⟩)
    (x0 : (⟨4, ![1, 256, 512, 512]⟩ : Shape).Idx → EReal) (x1 x2 : (⟨2, ![64, 256]⟩ : Shape).Idx → EReal)
    (x3 : (⟨1, ![64]⟩ : Shape).Idx → EReal) : (⟨2, ![64, 256]⟩ : Shape).Idx → EReal :=
  fun i => vlad lo eps (fun k d => x2 (ix2 k d)) (fun k => x3 (ix1 k)) (fun k d => x1 (ix2 k d))
    (fun (d : Fin 256) (n : Fin 262144) => shapeCast ⟨2, ![256, 262144]⟩ x0 h (ix2 d n)) (i 0) (i 1)

end Cert.Vlad

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelOps.lean ====
/-
  The kernel body's pure values, read at an index on the extended reals.

  At one grid point the body loads a block of 8192 positions of the features (`[256, 8192]`), the weights, the bias
  column and, at the last point, the centres. Its values, entry by entry:
  * the soft assignment of the block's positions (the softmax down each of the 8192 columns of the logits) — it is
    the specification's `assign` of the block's own columns;
  * the new weighted-sum accumulator: the old one plus, at `(k, d)`, the sum over the block's positions of the
    assignment of cluster `k` times feature `d`;
  * the new assignment-total column: the old one plus the row sums of the assignment;
  * at the last point, the two normalisations of the residual of the accumulated sums: the specification's `finish`;
  * the two zero fills the first point starts the accumulators from.
  Every change of float format is the identity here, and each matrix product into a zero accumulator is a plain sum.
-/
import proofs.«172698_j82549271429466_1_alg».proof.Proof.Gen.KernelIdeal.Skeleton
import proofs.«172698_j82549271429466_1_alg».proof.Proof.Spec
import proofs.«172698_j82549271429466_1_alg».proof.Proof.LibRowOps

noncomputable section

namespace Cert.KernelIdeal.Ops

open Cert.KernelIdeal Cert.KernelIdeal.Gen Idealize.ShloMosaic Idealize.ShloMosaic.ValueIdx Cert.Vlad

/-! ## Reductions down the columns, and one row spread over many -/

section Columns

variable {a b : ℕ} {φ : FTy}

/-- A sum over the rows (axis 0) of an `[a, b]` vector, read at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  rw [Ideal.multiReduction_add_single]
  refine Finset.sum_congr rfl fun k _ => congrArg src (funext fun ax => Fin.ext ?_)
  match ax with
  | ⟨0, _⟩ => rfl
  | ⟨1, _⟩ => rfl

/-- A maximum over the rows (axis 0) of an `[a, b]` vector, read at column `j`: the fold of `max` down that column from
    the value the accumulator's pattern denotes. -/
theorem colMax_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) (fun k => src (ix2 k j)) := by
  rw [Ideal.multiReduction_maximumf_single]
  have e : (src ∘ h.lift (ix1 j)) = fun k : Fin a => src (ix2 k j) :=
    funext fun k => congrArg src (funext fun ax => Fin.ext (by
      match ax with
      | ⟨0, _⟩ => rfl
      | ⟨1, _⟩ => rfl))
  exact congrArg (fun f => (Finset.univ : Finset (Fin a)).fold max (Ideal.ofBits φ acc) f) e

/-- A `[b]` array kept as the one row `[1, b]` and spread over `[a, b]`: at `(p, c)` it is the array's entry `c`. -/
theorem colSpread_apply {α : Type} (x : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x hs) hb (ix2 p c) = x (ix1 c) := by
  rw [broadcastTo_1b_ab_apply, shapeCast_a_1a_apply]

end Columns

/-! ## The softmax down the columns -/

section Softmax

variable {a b : ℕ}

/-- The softmax down each column of an `[a, b]` vector of logits, as the payload computes it (the column's maximum
    folded from minus infinity, the shifted exponentials, their column sum, the quotient), read at `(k, j)`: the
    specification's soft assignment of the logits read by coordinates. -/
theorem softmax_apply (L : FVec Ideal ⟨2, ![a, b]⟩ .f32)
    (hr : (⟨2, ![a, b]⟩ : Shape).Reduces [0] ⟨1, ![b]⟩) (hs : (⟨1, ![b]⟩ : Shape).ShapeCasts ⟨2, ![1, b]⟩)
    (hb : (⟨2, ![1, b]⟩ : Shape).Broadcasts ⟨2, ![a, b]⟩) (hφ hφ' : FKind.Formats .f32)
    (hm : (0xFF800000#32 : BitVec FTy.f32.bits) = FKind.maximumf.neutral .f32 hφ)
    (ha : (0x00000000#32 : BitVec FTy.f32.bits) = FKind.add.neutral .f32 hφ') (k : Fin a) (j : Fin b) :
    divf
        (exp (subf L (broadcastTo ⟨2, ![a, b]⟩ (shapeCast ⟨2, ![1, b]⟩
          (multiReduction .maximumf [0] ⟨1, ![b]⟩ L 0xFF800000#32 hr hφ hm) hs) hb)))
        (broadcastTo ⟨2, ![a, b]⟩ (shapeCast ⟨2, ![1, b]⟩
          (multiReduction .add [0] ⟨1, ![b]⟩
            (exp (subf L (broadcastTo ⟨2, ![a, b]⟩ (shapeCast ⟨2, ![1, b]⟩
              (multiReduction .maximumf [0] ⟨1, ![b]⟩ L 0xFF800000#32 hr hφ hm) hs) hb)))
            0x00000000#32 hr hφ' ha) hs) hb) (ix2 k j)
      = assign lo (fun k j => L (ix2 k j)) k j := by
  have hE : ∀ k' : Fin a,
      exp (subf L (broadcastTo ⟨2, ![a, b]⟩ (shapeCast ⟨2, ![1, b]⟩
          (multiReduction .maximumf [0] ⟨1, ![b]⟩ L 0xFF800000#32 hr hφ hm) hs) hb)) (ix2 k' j)
        = expShift lo (fun k j => L (ix2 k j)) k' j := by
    intro k'
    show Ideal.exp (L (ix2 k' j) - broadcastTo ⟨2, ![a, b]⟩ (shapeCast ⟨2, ![1, b]⟩
          (multiReduction .maximumf [0] ⟨1, ![b]⟩ L 0xFF800000#32 hr hφ hm) hs) hb (ix2 k' j)) = _
    rw [colSpread_apply, colMax_apply]
    rfl
  rw [divf_apply, colSpread_apply, colSum_apply, hE]
  unfold assign
  exact congrArg (Ideal.div _) (Finset.sum_congr rfl fun k' _ => hE k')

end Softmax

/-! ## The two normalisations -/

section Normalise

variable {a b : ℕ}

/-- Each column of an `[a, b]` vector divided by its length (the root of the column's sum of squares, kept as one row
    and spread back), the length at least the floor: the specification's column normalisation, read at `(k, d)`. -/
theorem colNormalize_apply (V : FVec Ideal ⟨2, ![a, b]⟩ .f32)
    (hr : (⟨2, ![a, b]⟩ : Shape).Reduces [0] ⟨1, ![b]⟩) (hs : (⟨1, ![b]⟩ : Shape).ShapeCasts ⟨2, ![1, b]⟩)
    (hb : (⟨2, ![1, b]⟩ : Shape).Broadcasts ⟨2, ![a, b]⟩) (hφ : FKind.Formats .f32)
    (ha : (0x00000000#32 : BitVec FTy.f32.bits) = FKind.add.neutral .f32 hφ) (k : Fin a) (d : Fin b) :
    divf V (broadcastTo ⟨2, ![a, b]⟩
        (maximumf (sqrt (shapeCast ⟨2, ![1, b]⟩ (multiReduction .add [0] ⟨1, ![b]⟩ (mulf V V) 0x00000000#32 hr hφ ha) hs))
          (broadcast ⟨2, ![1, b]⟩ (Scalar.ofBits (F := Ideal) .f32 0x2B8CBCCC#32))) hb) (ix2 k d)
      = colNormalize eps (fun k d => V (ix2 k d)) k d := by
  rw [divf_apply, broadcastTo_1b_ab_apply, maximumf_apply]
  show Ideal.div (V (ix2 k d)) (max (Ideal.sqrt (shapeCast ⟨2, ![1, b]⟩
      (multiReduction .add [0] ⟨1, ![b]⟩ (mulf V V) 0x00000000#32 hr hφ ha) hs (ix2 (0 : Fin 1) d))) eps) = _
  rw [shapeCast_a_1a_apply, colSum_apply]
  rfl

/-- Each row of an `[a, b]` vector divided by its length (the root of the row's sum of squares, kept as a column and
    spread back), the length at least the floor: the specification's row normalisation, read at `(k, d)`. -/
theorem rowNormalize_apply (V : FVec Ideal ⟨2, ![a, b]⟩ .f32)
    (hr : (⟨2, ![a, b]⟩ : Shape).Reduces [1] ⟨1, ![a]⟩) (hs : (⟨1, ![a]⟩ : Shape).ShapeCasts ⟨2, ![a, 1]⟩)
    (hb : (⟨2, ![a, 1]⟩ : Shape).Broadcasts ⟨2, ![a, b]⟩) (hφ : FKind.Formats .f32)
    (ha : (0x00000000#32 : BitVec FTy.f32.bits) = FKind.add.neutral .f32 hφ) (k : Fin a) (d : Fin b) :
    divf V (broadcastTo ⟨2, ![a, b]⟩
        (maximumf (sqrt (shapeCast ⟨2, ![a, 1]⟩ (multiReduction .add [1] ⟨1, ![a]⟩ (mulf V V) 0x00000000#32 hr hφ ha) hs))
          (broadcast ⟨2, ![a, 1]⟩ (Scalar.ofBits (F := Ideal) .f32 0x2B8CBCCC#32))) hb) (ix2 k d)
      = rowNormalize eps (fun k d => V (ix2 k d)) k d := by
  rw [divf_apply, Cert.RowOps.broadcastTo_a1_ab_apply, maximumf_apply]
  show Ideal.div (V (ix2 k d)) (max (Ideal.sqrt (shapeCast ⟨2, ![a, 1]⟩
      (multiReduction .add [1] ⟨1, ![a]⟩ (mulf V V) 0x00000000#32 hr hφ ha) hs (ix2 k (0 : Fin 1)))) eps) = _
  rw [Cert.RowOps.shapeCast_a_a1_apply, Cert.RowOps.laneSum_apply]
  rfl

end Normalise

/-! ## A matrix product contracting the columns of both operands -/

/-- A matrix product `[M,K]·[N,K]` contracting the columns of both operands into the zero accumulator, read at
    `(p, c)`: the sum over `k` of `lhs (p, k) · rhs (c, k)`. -/
theorem matmulT_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil), dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

/-! ## The payloads -/

/-- The block of features in the matrix unit's format is the block itself. -/
theorem pay4_apply (v3 : Vec Ideal S256x8192 .f32) (i : S256x8192.Idx) : k0_pay4 (F := Ideal) v3 i = v3 i := by
  unfold k0_pay4
  show shapeCast S256x8192 v3 shapeCasts_S256x8192_S256x8192 i = v3 i
  rw [shapeCast_self]

/-- The block's logits at `(k, j)`: row `k` of the weights against column `j` of the block, plus the bias of row `k`. -/
theorem logit_apply (v3 : Vec Ideal S256x8192 .f32) (v5 : Vec Ideal S64x256 .f32) (v6 : Vec Ideal S64x1 .f32) (k : Fin 64) (j : Fin 8192) :
    addf (matmul dot_S64x256_S256x8192_S64x8192_1_0_0_1_n_n none (truncf .bf16 v5 bitsLt_bf16_f32) (k0_pay4 v3)
          (constant S64x8192 .f32 0x00000000#32))
        (broadcastTo S64x8192 (shapeCast S64x1 v6 shapeCasts_S64x1_S64x1) broadcasts_S64x1_S64x8192) (ix2 k j)
      = logit (fun (k : Fin 64) (d : Fin 256) => v5 (ix2 k d)) (fun k => v6 (ix2 k (0 : Fin 1)))
          (fun (d : Fin 256) (j : Fin 8192) => v3 (ix2 d j)) k j := by
  rw [addf_apply, Cert.RowOps.broadcastTo_a1_ab_apply, shapeCast_self]
  refine congrArg (· + v6 (ix2 k (0 : Fin 1))) ?_
  refine (Cert.RowOps.matmul_apply dot_S64x256_S256x8192_S64x8192_1_0_0_1_n_n_wf none _ _ k j).trans ?_
  exact Finset.sum_congr rfl fun d _ => congrArg (v5 (ix2 k d) * ·) (pay4_apply v3 (ix2 d j))

/-- The block's soft assignment, as the specification's softmax of the block's own logits. -/
abbrev blockAssign (v3 : Vec Ideal S256x8192 .f32) (v5 : Vec Ideal S64x256 .f32) (v6 : Vec Ideal S64x1 .f32) : Fin 64 → Fin 8192 → EReal :=
  assign lo (logit (fun (k : Fin 64) (d : Fin 256) => v5 (ix2 k d)) (fun k => v6 (ix2 k (0 : Fin 1))) (fun (d : Fin 256) (j : Fin 8192) => v3 (ix2 d j)))

/-- The softmax payload at `(k, j)`. -/
theorem pay5_apply (v3 : Vec Ideal S256x8192 .f32) (v5 : Vec Ideal S64x256 .f32) (v6 : Vec Ideal S64x1 .f32) (k : Fin 64) (j : Fin 8192) :
    k0_pay5 (F := Ideal) v3 v5 v6 (ix2 k j) = blockAssign v3 v5 v6 k j := by
  unfold k0_pay5
  refine (softmax_apply _ reduces_S64x8192_S8192 shapeCasts_S8192_S1x8192 broadcasts_S1x8192_S64x8192 (.inl rfl) (.inl rfl) rfl rfl k j).trans ?_
  exact congrArg (fun L => assign lo L k j) (funext fun k' => funext fun j' => logit_apply v3 v5 v6 k' j')

/-- The accumulator's update at `(k, d)`: what it held plus the block's weighted sum. -/
theorem pay6_apply (v3 : Vec Ideal S256x8192 .f32) (v5 : Vec Ideal S64x256 .f32) (v6 : Vec Ideal S64x1 .f32) (v24 : Vec Ideal S64x256 .f32)
    (k : Fin 64) (d : Fin 256) :
    k0_pay6 (F := Ideal) v3 v5 v6 v24 (ix2 k d) = v24 (ix2 k d) + ∑ j : Fin 8192, blockAssign v3 v5 v6 k j * v3 (ix2 d j) := by
  unfold k0_pay6
  show shapeCast S64x256 (addf v24 (matmul dot_S64x8192_S256x8192_S64x256_1_1_0_0_n_n none
      (truncf .bf16 (k0_pay5 v3 v5 v6) bitsLt_bf16_f32) (k0_pay4 v3) (constant S64x256 .f32 0x00000000#32)))
    shapeCasts_S64x256_S64x256 (ix2 k d) = _
  rw [shapeCast_self, addf_apply]
  refine congrArg (v24 (ix2 k d) + ·) ?_
  refine (matmulT_apply dot_S64x8192_S256x8192_S64x256_1_1_0_0_n_n_wf none _ _ k d).trans ?_
  refine Finset.sum_congr rfl fun j _ => ?_
  rw [truncf_apply, pay5_apply, pay4_apply]

/-- The assignment-total column's update at row `k`: what it held plus the block's row sum. -/
theorem pay7_apply (v3 : Vec Ideal S256x8192 .f32) (v5 : Vec Ideal S64x256 .f32) (v6 : Vec Ideal S64x1 .f32) (v29 : Vec Ideal S64x1 .f32)
    (k : Fin 64) :
    k0_pay7 (F := Ideal) v3 v5 v6 v29 (ix2 k (0 : Fin 1)) = v29 (ix2 k (0 : Fin 1)) + ∑ j : Fin 8192, blockAssign v3 v5 v6 k j := by
  unfold k0_pay7
  show shapeCast S64x1 (addf v29 (shapeCast S64x1
      (multiReduction .add [1] S64 (k0_pay5 v3 v5 v6) 0x00000000#32 reduces_S64x8192_S64 (.inl rfl) rfl) shapeCasts_S64_S64x1))
    shapeCasts_S64x1_S64x1 (ix2 k (0 : Fin 1)) = _
  rw [shapeCast_self, addf_apply, Cert.RowOps.shapeCast_a_a1_apply]
  refine congrArg (v29 (ix2 k (0 : Fin 1)) + ·) ?_
  refine (Cert.RowOps.laneSum_apply _ _ reduces_S64x8192_S64 (.inl rfl) rfl k).trans ?_
  exact Finset.sum_congr rfl fun j _ => pay5_apply v3 v5 v6 k j

/-- The last point's result at `(k, d)`: the two normalisations of the residual. -/
theorem pay1_apply (v39 v40 : Vec Ideal S64x256 .f32) (v41 : Vec Ideal S64x1 .f32) (k : Fin 64) (d : Fin 256) :
    k0_pay1 (F := Ideal) v39 v40 v41 (ix2 k d)
      = finish eps (fun (k : Fin 64) (d : Fin 256) => v39 (ix2 k d)) (fun k d => v40 (ix2 k d)) (fun k => v41 (ix2 k (0 : Fin 1))) k d := by
  unfold k0_pay1
  refine (rowNormalize_apply _ reduces_S64x256_S64 shapeCasts_S64_S64x1 broadcasts_S64x1_S64x256 (.inl rfl) rfl k d).trans ?_
  unfold finish
  refine congrArg (fun V => rowNormalize eps V k d) (funext fun k' => funext fun d' => ?_)
  refine (colNormalize_apply _ reduces_S64x256_S256 shapeCasts_S256_S1x256 broadcasts_S1x256_S64x256 (.inl rfl) rfl k' d').trans ?_
  refine congrArg (fun V => colNormalize eps V k' d') (funext fun k'' => funext fun d'' => ?_)
  show v40 (ix2 k'' d'') - v39 (ix2 k'' d'') * broadcastTo S64x256 v41 broadcasts_S64x1_S64x256 (ix2 k'' d'') = _
  rw [Cert.RowOps.broadcastTo_a1_ab_apply]
  rfl

/-- The accumulator's zero fill. -/
theorem pay2_apply (i : S64x256.Idx) : k0_pay2 (F := Ideal) i = 0 := by
  unfold k0_pay2
  show shapeCast S64x256 (broadcast S64x256 (Scalar.ofBits (F := Ideal) .f32 0x00000000#32)) shapeCasts_S64x256_S64x256 i = 0
  rw [shapeCast_self]
  exact Ideal.ofBits_zero_f32

/-- The assignment-total column's zero fill. -/
theorem pay3_apply (i : S64x1.Idx) : k0_pay3 (F := Ideal) i = 0 := by
  unfold k0_pay3
  show shapeCast S64x1 (broadcast S64x1 (Scalar.ofBits (F := Ideal) .f32 0x00000000#32)) shapeCasts_S64x1_S64x1 i = 0
  rw [shapeCast_self]
  exact Ideal.ofBits_zero_f32

end Cert.KernelIdeal.Ops

end
-- ==== Proof.KernelFold.lean ====
/-
  From the grid's 32 points to the result array, on the extended reals.

  The body's loaded blocks are read off the arrays: the features' block at point `t` is columns `t·8192 …` of the
  features; the weights, the bias column and the centres are their whole arrays at every point. Since a column's
  softmax reads that column only, the soft assignment the body computes on a block is the whole soft assignment at
  the block's positions. Each point therefore adds to the two accumulators the block's share of the two sums over
  positions; started from zero at the first point, after point `n` they hold the shares of blocks `0 … n`, and after
  the last the full sums (32 blocks of 8192 positions are all 262144 positions). The last point stores the
  normalised residual of those sums; its block is the whole result array and is the only one written back. The two
  reshaped arrays the kernel reads are the arguments read at the new shapes, so the result is the specification's
  aggregation of the four arguments.
-/
import proofs.«172698_j82549271429466_1_alg».proof.Proof.Gen.KernelIdeal.Value
import proofs.«172698_j82549271429466_1_alg».proof.Proof.KernelPieces
import Idealize.ShloMosaic.Lib.StableHlo.Run
import proofs.«172698_j82549271429466_1_alg».proof.Proof.KernelOps

set_option maxRecDepth 16384

noncomputable section

namespace Cert.KernelIdeal.Fold

open Cert.KernelIdeal Cert.KernelIdeal.Gen Cert.KernelIdeal.Value Cert.KernelIdeal.Ops Cert.KernelIdeal.Pieces
open Idealize.ShloMosaic Idealize.ShloMosaic.TcCoe Idealize.ShloMosaic.ValueIdx Idealize.SL.Sem Cert.Vlad
open Idealize.ShloMosaic.Pipeline (Dat)

variable (m : (ℓ : Loc nD τ sig) → Buf (Elt Ideal) ℓ)

/-- The features' block at a grid point, the weights, the bias column and the centres as the body loads them. -/
abbrev xblk (c : Dev nD) (t : Fin cfg0.N) : Vec Ideal S256x8192 .f32 := iblk m c 0 t
abbrev wblk (c : Dev nD) (t : Fin cfg0.N) : Vec Ideal S64x256 .f32 := iblk m c 1 t
abbrev bblk (c : Dev nD) (t : Fin cfg0.N) : Vec Ideal S64x1 .f32 := iblk m c 2 t
abbrev cblk (c : Dev nD) (t : Fin cfg0.N) : Vec Ideal S64x256 .f32 := iblk m c 3 t
/-- The arrays the kernel's windows are cut from, as the kernel finds them. -/
abbrev xarr (c : Dev nD) : Vec Ideal S256x262144 .f32 := V m c main_v0
abbrev warr (c : Dev nD) : Vec Ideal S64x256 .f32 := V m c main_arg2
abbrev barr (c : Dev nD) : Vec Ideal S64x1 .f32 := V m c main_v1
abbrev carr (c : Dev nD) : Vec Ideal S64x256 .f32 := V m c main_arg1

/-- Where each window's block sits: the features' block at point `t` is block `(0, t)`; the other windows always sit at `(0, 0)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## Reading the blocks -/

/-- The features' block at point `t` holds columns `t·8192 … t·8192 + 8191` of the features. -/
theorem xblk_apply (c : Dev nD) (t : Fin cfg0.N) (d : Fin 256) (j : Fin 8192) (n : Fin 262144) (hn : n.val = t.val * 8192 + j.val) :
    xblk m c t (ix2 d j) = xarr m c (ix2 d n) := by
  obtain ⟨e0, e1, -⟩ := idx_facts t
  show V m c main_v0 (((cfg0.win 0).blk t).view.emb (ix2 d j)) = V m c main_v0 (ix2 d n)
  refine congrArg _ (funext fun a => Fin.ext ?_)
  match a with
  | ⟨0, _⟩ => show win0_0.index t (0 : Fin 2) * 256 + 1 * d.val = d.val; omega
  | ⟨1, _⟩ => show win0_0.index t (1 : Fin 2) * 8192 + 1 * j.val = n.val; omega

/-- The weights' block is the whole weights array at every point. -/
theorem wblk_apply (c : Dev nD) (t : Fin cfg0.N) (k : Fin 64) (d : Fin 256) :
    wblk m c t (ix2 k d) = warr m c (ix2 k d) := by
  obtain ⟨-, -, e0, e1, -⟩ := idx_facts t
  show V m c main_arg2 (((cfg0.win 1).blk t).view.emb (ix2 k d)) = V m c main_arg2 (ix2 k d)
  refine congrArg _ (funext fun a => Fin.ext ?_)
  match a with
  | ⟨0, _⟩ => show win0_1.index t (0 : Fin 2) * 64 + 1 * k.val = k.val; omega
  | ⟨1, _⟩ => show win0_1.index t (1 : Fin 2) * 256 + 1 * d.val = d.val; omega

/-- The bias block is the whole bias column at every point. -/
theorem bblk_apply (c : Dev nD) (t : Fin cfg0.N) (k : Fin 64) :
    bblk m c t (ix2 k (0 : Fin 1)) = barr m c (ix2 k (0 : Fin 1)) := by
  obtain ⟨-, -, -, -, e0, e1, -⟩ := idx_facts t
  show V m c main_v1 (((cfg0.win 2).blk t).view.emb (ix2 k (0 : Fin 1))) = V m c main_v1 (ix2 k (0 : Fin 1))
  refine congrArg _ (funext fun a => Fin.ext ?_)
  match a with
  | ⟨0, _⟩ => show win0_2.index t (0 : Fin 2) * 64 + 1 * k.val = k.val; omega
  | ⟨1, _⟩ => show win0_2.index t (1 : Fin 2) * 1 + 1 * 0 = 0; omega

/-- The centres' block is the whole centres array at every point. -/
theorem cblk_apply (c : Dev nD) (t : Fin cfg0.N) (k : Fin 64) (d : Fin 256) :
    cblk m c t (ix2 k d) = carr m c (ix2 k d) := by
  obtain ⟨-, -, -, -, -, -, e0, e1, -⟩ := idx_facts t
  show V m c main_arg1 (((cfg0.win 3).blk t).view.emb (ix2 k d)) = V m c main_arg1 (ix2 k d)
  refine congrArg _ (funext fun a => Fin.ext ?_)
  match a with
  | ⟨0, _⟩ => show win0_3.index t (0 : Fin 2) * 64 + 1 * k.val = k.val; omega
  | ⟨1, _⟩ => show win0_3.index t (1 : Fin 2) * 256 + 1 * d.val = d.val; omega

/-! ## The arrays as functions of coordinates, and the soft assignment of all positions -/

abbrev Wf (c : Dev nD) : Fin 64 → Fin 256 → EReal := fun k d => warr m c (ix2 k d)
abbrev Bf (c : Dev nD) : Fin 64 → EReal := fun k => barr m c (ix2 k (0 : Fin 1))
abbrev Cf (c : Dev nD) : Fin 64 → Fin 256 → EReal := fun k d => carr m c (ix2 k d)
abbrev Xf (c : Dev nD) : Fin 256 → Fin 262144 → EReal := fun d n => xarr m c (ix2 d n)
/-- The soft assignment of every position, from the whole arrays. -/
abbrev Af (c : Dev nD) : Fin 64 → Fin 262144 → EReal := assign lo (logit (Wf m c) (Bf m c) (Xf m c))

/-- The position of offset `j` in block `t`. -/
def pos (t : Fin cfg0.N) (j : Fin 8192) : Fin 262144 :=
  ⟨t.val * 8192 + j.val, by have h1 := lt_of_lt_of_eq t.isLt (show cfg0.N = 32 from N_0); have h2 := j.isLt; omega⟩

/-- The soft assignment the body computes on block `t` is the whole one at the block's positions. -/
theorem blockAssign_eq (c : Dev nD) (t : Fin cfg0.N) (k : Fin 64) (j : Fin 8192) :
    blockAssign (xblk m c t) (wblk m c t) (bblk m c t) k j = Af m c k (pos t j) := by
  have hx : (fun (d : Fin 256) (j : Fin 8192) => xblk m c t (ix2 d j)) = fun d j => Xf m c d (pos t j) :=
    funext fun d => funext fun j => xblk_apply m c t d j (pos t j) rfl
  have hw : (fun (k : Fin 64) (d : Fin 256) => wblk m c t (ix2 k d)) = Wf m c := funext fun k => funext fun d => wblk_apply m c t k d
  have hb : (fun k : Fin 64 => bblk m c t (ix2 k (0 : Fin 1))) = Bf m c := funext fun k => bblk_apply m c t k
  show assign lo (logit (fun (k : Fin 64) (d : Fin 256) => wblk m c t (ix2 k d)) (fun k => bblk m c t (ix2 k (0 : Fin 1)))
    (fun (d : Fin 256) (j : Fin 8192) => xblk m c t (ix2 d j))) k j = _
  rw [hx, hw, hb]
  exact assign_cols lo (Wf m c) (Bf m c) (Xf m c) (pos t) k j

/-! ## What one point adds to each accumulator -/

/-- Block `s`'s contribution to the weighted sums (zero past the grid). -/
def accAdd (c : Dev nD) (s : ℕ) (i : S64x256.Idx) : EReal :=
  if h : s < cfg0.N then ∑ j : Fin 8192, Af m c (i 0) (pos ⟨s, h⟩ j) * Xf m c (i 1) (pos ⟨s, h⟩ j) else 0

/-- Block `s`'s contribution to the assignment totals (zero past the grid). -/
def massAdd (c : Dev nD) (s : ℕ) (i : S64x1.Idx) : EReal :=
  if h : s < cfg0.N then ∑ j : Fin 8192, Af m c (i 0) (pos ⟨s, h⟩ j) else 0

/-- The weighted-sum update at point `t` adds block `t`'s contribution to whatever it is applied to. -/
theorem step_acc (c : Dev nD) (t : Fin cfg0.N) (acc : Vec Ideal S64x256 .f32) (i : S64x256.Idx) :
    k0_pay6 (F := Ideal) (xblk m c t) (wblk m c t) (bblk m c t) acc i = acc i + accAdd m c t.val i := by
  obtain ⟨k, d, rfl⟩ : ∃ (k : Fin 64) (d : Fin 256), i = ix2 k d := ⟨i 0, i 1, eq_ix2 i⟩
  rw [pay6_apply]
  unfold accAdd; rw [dif_pos t.isLt]
  refine congrArg (acc (ix2 k d) + ·) (Finset.sum_congr rfl fun j _ => ?_)
  rw [blockAssign_eq, xblk_apply m c t d j (pos t j) rfl]

/-- The assignment-total update at point `t` adds block `t`'s row sums to whatever it is applied to. -/
theorem step_mass (c : Dev nD) (t : Fin cfg0.N) (ms : Vec Ideal S64x1 .f32) (i : S64x1.Idx) :
    k0_pay7 (F := Ideal) (xblk m c t) (wblk m c t) (bblk m c t) ms i = ms i + massAdd m c t.val i := by
  obtain ⟨k, u, rfl⟩ : ∃ (k : Fin 64) (u : Fin 1), i = ix2 k u := ⟨i 0, i 1, eq_ix2 i⟩
  obtain rfl : u = 0 := Subsingleton.elim _ _
  rw [pay7_apply]
  unfold massAdd; rw [dif_pos t.isLt]
  refine congrArg (ms (ix2 k (0 : Fin 1)) + ·) (Finset.sum_congr rfl fun j _ => ?_)
  rw [blockAssign_eq]

/-! ## The accumulators after each point -/

/-- After point `n` the weighted-sum accumulator holds the contributions of blocks `0 … n`. -/
theorem acc_after (c : Dev nD) (n : ℕ) (hn : n < cfg0.N) (i : S64x256.Idx) :
    (outsAt0 m c n hn).2.1 i = 0 + ∑ s ∈ Finset.range (n + 1), accAdd m c s i := by
  have hN : n < 32 := lt_of_lt_of_eq hn (show cfg0.N = 32 from N_0)
  rw [soutsAt0_0_sweep m c n hn]
  have key := Pipeline.accAt_add_apply (N := cfg0.N)
    (fun n h => scAt0_0 m c n h (VS0_0.read (Elt Ideal) VS0_0.junk)) (scAt0_0 m c) (fun _ => (0 : EReal)) (accAdd m c) 0 31
    (fun h i => by
      unfold scAt0_0
      rw [dif_pos (Nat.zero_mod 32), dif_neg (by decide : ¬ 0 % 32 = 31)]
      refine (congrFun (first_acc (F := Ideal) c _ _ _ _ _ _ _ _ _ _ _ _ _ _ _ _ _ _ _ _ _) i).trans ?_
      refine (step_acc m c ⟨0, h⟩ (k0_pay2 (F := Ideal)) i).trans ?_
      rw [pay2_apply])
    (fun n h acc i h0 hle => by
      have hm0 : ¬ n % 32 = 0 := by omega
      unfold scAt0_0
      by_cases h1 : n % 32 = 31
      · rw [dif_neg hm0, dif_pos h1]
        refine (congrFun (last_acc (F := Ideal) c _ _ _ _ _ _ _ _ _ _ _ _ _ _ _ _ _ _ _ _ _ _ _) i).trans ?_
        exact step_acc m c ⟨n, h⟩ acc i
      · rw [dif_neg hm0, dif_neg h1]
        refine (congrFun (mid_acc (F := Ideal) c _ _ _ _ _ _ _ _ _ _ _ _ _ _ _ _ _ _ _ _ _ _ _) i).trans ?_
        exact step_acc m c ⟨n, h⟩ acc i)
    n (by omega) (by omega) i
  simpa only [Nat.zero_add] using key

/-- After point `n` the assignment-total column holds the row sums of blocks `0 … n`. -/
theorem mass_after (c : Dev nD) (n : ℕ) (hn : n < cfg0.N) (i : S64x1.Idx) :
    (outsAt0 m c n hn).2.2 i = 0 + ∑ s ∈ Finset.range (n + 1), massAdd m c s i := by
  have hN : n < 32 := lt_of_lt_of_eq hn (show cfg0.N = 32 from N_0)
  rw [soutsAt0_1_sweep m c n hn]
  have key := Pipeline.accAt_add_apply (N := cfg0.N)
    (fun n h => scAt0_1 m c n h (VS0_1.read (Elt Ideal) VS0_1.junk)) (scAt0_1 m c) (fun _ => (0 : EReal)) (massAdd m c) 0 31
    (fun h i => by
      unfold scAt0_1
      rw [dif_pos (Nat.zero_mod 32), dif_neg (by decide : ¬ 0 % 32 = 31)]
      refine (congrFun (first_mass (F := Ideal) c _ _ _ _ _ _ _ _ _ _ _ _ _ _ _ _ _ _ _ _ _) i).trans ?_
      refine (step_mass m c ⟨0, h⟩ (k0_pay3 (F := Ideal)) i).trans ?_
      rw [pay3_apply])
    (fun n h ms i h0 hle => by
      have hm0 : ¬ n % 32 = 0 := by omega
      unfold scAt0_1
      by_cases h1 : n % 32 = 31
      · rw [dif_neg hm0, dif_pos h1]
        refine (congrFun (last_mass (F := Ideal) c _ _ _ _ _ _ _ _ _ _ _ _ _ _ _ _ _ _ _ _ _ _ _) i).trans ?_
        exact step_mass m c ⟨n, h⟩ ms i
      · rw [dif_neg hm0, dif_neg h1]
        refine (congrFun (mid_mass (F := Ideal) c _ _ _ _ _ _ _ _ _ _ _ _ _ _ _ _ _ _ _ _ _ _ _) i).trans ?_
        exact step_mass m c ⟨n, h⟩ ms i)
    n (by omega) (by omega) i
  simpa only [Nat.zero_add] using key

/-! ## The totals over all blocks are the sums over all positions -/

/-- Block-and-offset pairs are the positions: 32 blocks of 8192. -/
def blockEquiv : Fin 32 × Fin 8192 ≃ Fin 262144 := finProdFinEquiv

theorem blockEquiv_val (t : Fin 32) (j : Fin 8192) : (blockEquiv (t, j)).val = t.val * 8192 + j.val := by
  show j.val + 8192 * t.val = t.val * 8192 + j.val
  omega

/-- The contributions of all 32 blocks add up to the weighted sum over all positions. -/
theorem acc_total (c : Dev nD) (k : Fin 64) (d : Fin 256) :
    0 + ∑ s ∈ Finset.range 32, accAdd m c s (ix2 k d) = agg (Af m c) (Xf m c) k d := by
  rw [zero_add, Finset.sum_range]
  unfold agg
  rw [sum_blocks blockEquiv]
  refine Finset.sum_congr rfl fun t _ => ?_
  have ht : t.val < cfg0.N := lt_of_lt_of_eq t.isLt (show (32 : ℕ) = cfg0.N from N_0.symm)
  unfold accAdd; rw [dif_pos ht]
  refine Finset.sum_congr rfl fun j _ => ?_
  have e : blockEquiv (t, j) = pos ⟨t.val, ht⟩ j := Fin.ext (blockEquiv_val t j)
  rw [e]

/-- The row sums of all 32 blocks add up to the total assignment over all positions. -/
theorem mass_total (c : Dev nD) (k : Fin 64) :
    0 + ∑ s ∈ Finset.range 32, massAdd m c s (ix2 k (0 : Fin 1)) = mass (Af m c) k := by
  rw [zero_add, Finset.sum_range]
  unfold mass
  rw [sum_blocks blockEquiv]
  refine Finset.sum_congr rfl fun t _ => ?_
  have ht : t.val < cfg0.N := lt_of_lt_of_eq t.isLt (show (32 : ℕ) = cfg0.N from N_0.symm)
  unfold massAdd; rw [dif_pos ht]
  refine Finset.sum_congr rfl fun j _ => ?_
  have e : blockEquiv (t, j) = pos ⟨t.val, ht⟩ j := Fin.ext (blockEquiv_val t j)
  rw [e]

/-! ## What the last point stores, and the result array -/

/-- The result as a function of the arrays the kernel finds: the normalised residual of the sums over all positions. -/
def Gk (c : Dev nD) : S64x256.Idx → EReal :=
  fun i => finish eps (Cf m c) (agg (Af m c) (Xf m c)) (mass (Af m c)) (i 0) (i 1)

/-- At the last point the output block holds the result. -/
theorem out_last (c : Dev nD) (t : Fin cfg0.N) (h1 : t.val % 32 = 31) (i : S64x256.Idx) :
    (outsAt0 m c t.val t.isLt).1 i = Gk m c i := by
  have hN : t.val < 32 := lt_of_lt_of_eq t.isLt (show cfg0.N = 32 from N_0)
  have h0 : ¬ t.val % 32 = 0 := by omega
  have ht : t.val = 31 := by omega
  obtain ⟨k, d, rfl⟩ : ∃ (k : Fin 64) (d : Fin 256), i = ix2 k d := ⟨i 0, i 1, eq_ix2 i⟩
  rw [outsAt0_C m c t h0 h1]; dsimp only
  refine (congrFun (last_out (F := Ideal) c _ _ _ _ _ _ _ _ _ _ _ _ _ _ _ _ _ _ _ _ _ _ _) (ix2 k d)).trans ?_
  have hp : t.val - 1 < cfg0.N := Nat.lt_of_le_of_lt (Nat.sub_le _ _) t.isLt
  refine (pay1_apply (cblk m c t)
    (k0_pay6 (F := Ideal) (xblk m c t) (wblk m c t) (bblk m c t) (outsAt0 m c (t.val - 1) hp).2.1)
    (k0_pay7 (F := Ideal) (xblk m c t) (wblk m c t) (bblk m c t) (outsAt0 m c (t.val - 1) hp).2.2) k d).trans ?_
  have hc : (fun (k : Fin 64) (d : Fin 256) => cblk m c t (ix2 k d)) = Cf m c := funext fun k => funext fun d => cblk_apply m c t k d
  have hs : t.val - 1 + 1 = 31 := by omega
  have ha : (fun (k : Fin 64) (d : Fin 256) =>
      k0_pay6 (F := Ideal) (xblk m c t) (wblk m c t) (bblk m c t) (outsAt0 m c (t.val - 1) hp).2.1 (ix2 k d)) = agg (Af m c) (Xf m c) :=
    funext fun k => funext fun d => by
      rw [step_acc, acc_after, ← acc_total, hs, ht, Finset.sum_range_succ _ 31, add_assoc]
  have hm : (fun (k : Fin 64) =>
      k0_pay7 (F := Ideal) (xblk m c t) (wblk m c t) (bblk m c t) (outsAt0 m c (t.val - 1) hp).2.2 (ix2 k (0 : Fin 1))) = mass (Af m c) :=
    funext fun k => by
      rw [step_mass, mass_after, ← mass_total, hs, ht, Finset.sum_range_succ _ 31, add_assoc]
  rw [hc, ha, hm]
  rfl

/-- An index of the result array is in point `t`'s output block iff each coordinate is in the block's range. -/
theorem mem_out_blk (t : Fin cfg0.N) (i : S64x256.Idx) :
    i ∈ ((cfg0.win 4).blk t).view.set ↔ ∀ a : Fin 2, win0_4.index t a * S64x256.size a ≤ (i a).val ∧ (i a).val < win0_4.index t a * S64x256.size a + S64x256.size a := by
  show i ∈ ((View.whole main_v2).slice (win0_4.rect t)).set ↔ _
  rw [View.set_slice_whole, Rect.mem_set_unit]
  exact Iff.rfl

/-- The last grid point. -/
def tLast : Fin cfg0.N := ⟨31, by rw [show cfg0.N = 32 from N_0]; decide⟩

/-- The one write-back, after the last point, writes the result: the output's block `(0, 0)` read through zero offsets
    is the whole array. -/
theorem flushed_last (c : Dev nD) (t : Fin cfg0.N) (hf : (cfg0.win 4).flush t = true) :
    (dats m 0 c).flushed 4 t = ((cfg0.win 4).blk t).view.read (Elt Ideal) (Gk m c) := by
  have h1 : t.val % 32 = 31 := (flush0_4 t).mp hf
  have hN : t.val < 32 := lt_of_lt_of_eq t.isLt (show cfg0.N = 32 from N_0)
  obtain rfl : t = tLast := Fin.ext (by show t.val = 31; omega)
  rw [flushed4]
  have ho : (outsAt0 m c tLast.val tLast.isLt).1 = Gk m c := funext fun i => out_last m c tLast h1 i
  rw [ho]
  have hz' : (fun a => win0_4.index tLast a * main_v2.ty.shape.size a) = fun _ => 0 := funext fun a => by fin_cases a <;> decide
  exact (Memref.read_access_unit_zero (Elt Ideal) main_v2 hz' (fun a => by rw [congrFun hz' a]; simp) (Gk m c)).symm

/-- After the run the result array holds `Gk`: the last point's block covers it. -/
theorem final_out (c : Dev nD) : (dats m 0 c).arrAt 4 cfg0.N = Gk m c := by
  refine (dats m 0 c).arrAt_eq_of_cover 4 (Gk m c) (flushed_last m c) (fun i => ?_)
  refine ⟨tLast, (flush0_4 _).mpr rfl, ?_⟩
  obtain ⟨-, -, -, -, -, -, -, -, e0, e1⟩ := idx_facts tLast
  rw [mem_out_blk]
  intro a
  have hi0 : (i 0).val < 64 := (i 0).isLt
  have hi1 : (i 1).val < 256 := (i 1).isLt
  match a with
  | ⟨0, _⟩ => show win0_4.index tLast (0 : Fin 2) * 64 ≤ (i 0).val ∧ (i 0).val < win0_4.index tLast (0 : Fin 2) * 64 + 64; omega
  | ⟨1, _⟩ => show win0_4.index tLast (1 : Fin 2) * 256 ≤ (i 1).val ∧ (i 1).val < win0_4.index tLast (1 : Fin 2) * 256 + 256; omega

/-! ## The arrays the kernel finds are the arguments, and the run -/

/-- The features as the kernel finds them: the first argument read as `[256, 262144]`. -/
theorem xarr_eq (c : Dev nD) :
    xarr m c = shapeCast S256x262144 (m ((c : Thread nD τ).loc main_arg0)) shapeCasts_S1x256x512x512_S256x262144 := by
  show V m c main_v0 = _
  dsimp only [Gen.V, Gen.hostOps0]; after_results; rfl

/-- The bias column as the kernel finds it: the bias read as `[64, 1]`. -/
theorem barr_eq (c : Dev nD) :
    barr m c = shapeCast S64x1 (m ((c : Thread nD τ).loc main_arg3)) shapeCasts_S64_S64x1 := by
  show V m c main_v1 = _
  dsimp only [Gen.V, Gen.hostOps0]; after_results; rfl

/-- The result is the specification's aggregation of the four arguments. -/
theorem Gk_eq (c : Dev nD) :
    Gk m c = G shapeCasts_S1x256x512x512_S256x262144 (m ((c : Thread nD τ).loc main_arg0)) (m ((c : Thread nD τ).loc main_arg1))
      (m ((c : Thread nD τ).loc main_arg2)) (m ((c : Thread nD τ).loc main_arg3)) := by
  have hW : Wf m c = fun k d => m ((c : Thread nD τ).loc main_arg2) (ix2 k d) := by
    funext k d; show V m c main_arg2 (ix2 k d) = _; rw [V_main_arg2]
  have hC : Cf m c = fun k d => m ((c : Thread nD τ).loc main_arg1) (ix2 k d) := by
    funext k d; show V m c main_arg1 (ix2 k d) = _; rw [V_main_arg1]
  have hB : Bf m c = fun k => m ((c : Thread nD τ).loc main_arg3) (ix1 k) := by
    funext k; show barr m c (ix2 k (0 : Fin 1)) = _; rw [barr_eq]; exact Cert.RowOps.shapeCast_a_a1_apply _ _ k 0
  have hX : Xf m c = fun d n => shapeCast S256x262144 (m ((c : Thread nD τ).loc main_arg0)) shapeCasts_S1x256x512x512_S256x262144 (ix2 d n) := by
    funext d n; show xarr m c (ix2 d n) = _; rw [xarr_eq]
  funext i
  unfold Gk G vlad
  show finish eps (Cf m c) (agg (assign lo (logit (Wf m c) (Bf m c) (Xf m c))) (Xf m c)) (mass (assign lo (logit (Wf m c) (Bf m c) (Xf m c)))) (i 0) (i 1) = _
  rw [hW, hC, hB, hX]

/-- The kernel's run with its result named: the aggregation of the arguments, which end unchanged. -/
theorem run (ρ : Dev nD → PrngReg) : θ_run defs (onTc (τ := τ) (main (F := Ideal))) ⟨m, fun _ => 0, ρ⟩ fun r => ∀ c : Dev nD,
      r.2.mem ((c : Thread nD τ).loc main_v2) = G shapeCasts_S1x256x512x512_S256x262144 (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final_out m c).trans (Gk_eq m c)), (h c).2⟩) (run_blocks m ρ)

end Cert.KernelIdeal.Fold

end
-- ==== Proof.RefValue.lean ====
/-
  The reference program's result, read at an index on the extended reals, is the specification's aggregation `G` of
  its four arguments: stage by stage, the logits (a matrix product plus the bias spread along the positions), the
  column maxima (the reduce from minus infinity; the further maximum against minus infinity changes nothing), the
  shifted exponentials and their column sums, the soft assignment, the two sums over all positions, the residual, and
  the two normalisations, each length the root of a sum of squares floored at the shared small constant.
-/
import proofs.«172698_j82549271429466_1_alg».proof.Proof.Gen.ReferenceIdeal.Read
import proofs.«172698_j82549271429466_1_alg».proof.Proof.Spec
import Mathlib.Data.Finset.Fold

noncomputable section

namespace Cert.ReferenceIdeal.RefValue

open Cert.ReferenceIdeal Cert.ReferenceIdeal.Gen Cert.ReferenceIdeal.Read Idealize.ShloMosaic Idealize.ShloMosaic.ValueIdx Cert.Vlad

section Stages

variable (x0 : (⟨S1x256x512x512, .f32⟩ : BufTy).Contents (Elt Ideal)) (x1 x2 : (⟨S64x256, .f32⟩ : BufTy).Contents (Elt Ideal))
    (x3 : (⟨S64, .f32⟩ : BufTy).Contents (Elt Ideal))

/-- The weights by cluster and coordinate. -/
abbrev wts : Fin 64 → Fin 256 → EReal := fun k d => x2 (ix2 k d)
/-- The bias by cluster. -/
abbrev bias : Fin 64 → EReal := fun k => x3 (ix1 k)
/-- The centres by cluster and coordinate. -/
abbrev ctr : Fin 64 → Fin 256 → EReal := fun k d => x1 (ix2 k d)
/-- The features by coordinate and position: the first argument read as 256 rows of 262144 positions. -/
abbrev feat : Fin 256 → Fin 262144 → EReal := fun d n => val_main_v0 (F := Ideal) x0 (ix2 d n)

/-- The logits of the arguments. -/
abbrev lgt : Fin 64 → Fin 262144 → EReal := logit (wts x2) (bias x3) (feat x0)

/-- The sum of the matrix product and the spread bias, at cluster `k` and position `n`, is the logit. -/
theorem logit_eq (k : Fin 64) (n : Fin 262144) :
    val_main_v4 (F := Ideal) x0 x2 x3 (ix2 k n) = lgt x0 x2 x3 k n := by
  rw [val_main_v4_apply, val_main_v1_apply, val_main_v3_apply, val_main_v2_apply]
  have el : ∀ q : Fin 256, lidx_main_v1 (ix2 k n) q = ix2 k q := fun q => funext fun a => by
    match a with
    | ⟨0, _⟩ => rfl
    | ⟨1, _⟩ => rfl
  have er : ∀ q : Fin 256, ridx_main_v1 (ix2 k n) q = ix2 q n := fun q => funext fun a => by
    match a with
    | ⟨0, _⟩ => rfl
    | ⟨1, _⟩ => rfl
  have eb : idx_main_v2 (idx_main_v3 (ix2 k n)) = ix1 k := funext fun a => by
    match a with
    | ⟨0, _⟩ => rfl
  rw [eb, Finset.sum_congr rfl fun q _ => by rw [el q, er q]]
  rfl

/-- A position's index with the cluster `k` put back on the dropped axis is (k, n). -/
theorem lift_ix2 (h : S64x262144.Reduces [0] S262144) (n : Fin 262144) (k : Fin (S64x262144.size 0)) :
    h.lift (ix1 n) k = ix2 (⟨k.val, k.isLt⟩ : Fin 64) n := by
  funext c
  apply Fin.ext
  match c with
  | ⟨0, _⟩ => rfl
  | ⟨1, _⟩ => rfl

/-- The column maxima: the reduce from minus infinity, and the further maximum against minus infinity, at position
    `n`, is the fold of the maximum over the clusters' logits from minus infinity. -/
theorem colMax_eq (n : Fin 262144) :
    val_main_v7 (F := Ideal) x0 x2 x3 (ix1 n) = colMax lo (lgt x0 x2 x3) n := by
  have h : S64x262144.Reduces [0] S262144 := by decide
  have e5 : val_main_v5 (F := Ideal) x0 x2 x3 (ix1 n) = colMax lo (lgt x0 x2 x3) n := by
    unfold val_main_v5
    refine (Host.reduce_eq_fold_single (α := Ideal .f32) (FloatOps.maximumf (F := Ideal) (φ := .f32))
      (val_main_v4 (F := Ideal) x0 x2 x3) (val_main_cst (F := Ideal)) reducesTo_S64x262144_S262144_d0 h h_S_ (ix1 n)).trans ?_
    have hf : (val_main_v4 (F := Ideal) x0 x2 x3 ∘ h.lift (ix1 n)) = fun k : Fin 64 => lgt x0 x2 x3 k n :=
      funext fun k => (congrArg (val_main_v4 (F := Ideal) x0 x2 x3) (lift_ix2 h n k)).trans (logit_eq x0 x2 x3 _ n)
    exact congrArg (fun f => Finset.fold max lo f (Finset.univ : Finset (Fin 64))) hf
  rw [val_main_v7_apply, val_main_v6_apply, val_main_cst_0_apply, e5]
  exact max_eq_right ((Finset.le_fold_max _).2 (Or.inl le_rfl))

/-- The shifted exponentials. -/
theorem expShift_eq (k : Fin 64) (n : Fin 262144) :
    val_main_v11 (F := Ideal) x0 x2 x3 (ix2 k n) = expShift lo (lgt x0 x2 x3) k n := by
  rw [val_main_v11_apply, val_main_v10_apply, val_main_v9_apply, val_main_v8_apply]
  have e : idx_main_v8 (idx_main_v9 (ix2 k n)) = ix1 n := funext fun a => by
    match a with
    | ⟨0, _⟩ => rfl
  rw [e, colMax_eq, logit_eq]
  rfl

/-- The soft assignment of the logits. -/
abbrev asg : Fin 64 → Fin 262144 → EReal := assign lo (lgt x0 x2 x3)

/-- The column sums of the shifted exponentials, from zero. -/
theorem expSum_eq (n : Fin 262144) :
    val_main_v12 (F := Ideal) x0 x2 x3 (ix1 n) = ∑ k' : Fin 64, expShift lo (lgt x0 x2 x3) k' n := by
  rw [val_main_v12_apply, val_main_cst_1_apply]
  have e : ∀ k' : Fin 64, idx_main_v12 (ix1 n) k' = ix2 k' n := fun k' => funext fun a => by
    match a with
    | ⟨0, _⟩ => rfl
    | ⟨1, _⟩ => rfl
  rw [Finset.sum_congr rfl fun k' _ => by rw [e k', expShift_eq]]
  exact (congrArg (· + _) Ideal.ofBits_zero_f32).trans (zero_add _)

/-- The quotient of a shifted exponential by its column's sum is the soft assignment. -/
theorem assign_eq (k : Fin 64) (n : Fin 262144) :
    val_main_v15 (F := Ideal) x0 x2 x3 (ix2 k n) = asg x0 x2 x3 k n := by
  rw [val_main_v15_apply, val_main_v14_apply, val_main_v13_apply]
  have e : idx_main_v13 (idx_main_v14 (ix2 k n)) = ix1 n := funext fun a => by
    match a with
    | ⟨0, _⟩ => rfl
  rw [e, expSum_eq, expShift_eq]
  rfl

/-- The assignment-weighted sums of the features over all positions. -/
theorem agg_eq (k : Fin 64) (d : Fin 256) :
    val_main_v16 (F := Ideal) x0 x2 x3 (ix2 k d) = agg (asg x0 x2 x3) (feat x0) k d := by
  rw [val_main_v16_apply]
  have el : ∀ n : Fin 262144, lidx_main_v16 (ix2 k d) n = ix2 k n := fun n => funext fun a => by
    match a with
    | ⟨0, _⟩ => rfl
    | ⟨1, _⟩ => rfl
  have er : ∀ n : Fin 262144, ridx_main_v16 (ix2 k d) n = ix2 d n := fun n => funext fun a => by
    match a with
    | ⟨0, _⟩ => rfl
    | ⟨1, _⟩ => rfl
  rw [Finset.sum_congr rfl fun n _ => by rw [el n, er n, assign_eq]]
  rfl

/-- The total assignment of each cluster, summed from zero. -/
theorem mass_eq (k : Fin 64) :
    val_main_v17 (F := Ideal) x0 x2 x3 (ix1 k) = mass (asg x0 x2 x3) k := by
  rw [val_main_v17_apply, val_main_cst_2_apply]
  have e : ∀ n : Fin 262144, idx_main_v17 (ix1 k) n = ix2 k n := fun n => funext fun a => by
    match a with
    | ⟨0, _⟩ => rfl
    | ⟨1, _⟩ => rfl
  rw [Finset.sum_congr rfl fun n _ => by rw [e n, assign_eq]]
  exact (congrArg (· + _) Ideal.ofBits_zero_f32).trans (zero_add _)

/-- The residual of the arguments. -/
abbrev rsd : Fin 64 → Fin 256 → EReal := resid (ctr x1) (agg (asg x0 x2 x3) (feat x0)) (mass (asg x0 x2 x3))

/-- The weighted sum less the centre times the spread total assignment is the residual. -/
theorem resid_eq (k : Fin 64) (d : Fin 256) :
    val_main_v21 (F := Ideal) x0 x1 x2 x3 (ix2 k d) = rsd x0 x1 x2 x3 k d := by
  rw [val_main_v21_apply, val_main_v20_apply, val_main_v19_apply, val_main_v18_apply]
  have e : idx_main_v18 (idx_main_v19 (ix2 k d)) = ix1 k := funext fun a => by
    match a with
    | ⟨0, _⟩ => rfl
  rw [e, mass_eq, agg_eq]
  rfl

/-- The sums of squares down each column of the residual, from zero. -/
theorem colSq_eq (d : Fin 256) :
    val_main_call0_v1 (F := Ideal) x0 x1 x2 x3 (ix1 d) = ∑ k' : Fin 64, rsd x0 x1 x2 x3 k' d * rsd x0 x1 x2 x3 k' d := by
  rw [val_main_call0_v1_apply, val_main_call0_cst_apply]
  have e : ∀ k' : Fin 64, idx_main_call0_v1 (ix1 d) k' = ix2 k' d := fun k' => funext fun a => by
    match a with
    | ⟨0, _⟩ => rfl
    | ⟨1, _⟩ => rfl
  rw [Finset.sum_congr rfl fun k' _ => by rw [e k', val_main_call0_v0_apply, resid_eq]]
  exact (congrArg (· + _) Ideal.ofBits_zero_f32).trans (zero_add _)

/-- The residual with each column divided by its floored length. -/
abbrev cnm : Fin 64 → Fin 256 → EReal := colNormalize eps (rsd x0 x1 x2 x3)

/-- The first normalisation: each column by the root of its sum of squares, floored. -/
theorem colNormalize_eq (k : Fin 64) (d : Fin 256) :
    val_main_v26 (F := Ideal) x0 x1 x2 x3 (ix2 k d) = cnm x0 x1 x2 x3 k d := by
  rw [val_main_v26_apply, val_main_v25_apply, val_main_v24_apply, val_main_v22_apply, val_main_call0_v2_apply,
    val_main_v23_apply, val_main_cst_3_apply]
  have e : idx_main_call0_v2 (idx_main_v25 (ix2 k d)) = ix1 d := funext fun a => by
    match a with
    | ⟨0, _⟩ => rfl
  rw [e, colSq_eq, resid_eq]
  rw [Ideal.hostDivf_def, Ideal.maximumf_def, Ideal.hostUnary_sqrt_def, Ideal.ofBits_def]
  rfl

/-- The sums of squares along each row of the column-normalised residual, from zero. -/
theorem rowSq_eq (k : Fin 64) :
    val_main_call1_v1 (F := Ideal) x0 x1 x2 x3 (ix1 k) = ∑ d' : Fin 256, cnm x0 x1 x2 x3 k d' * cnm x0 x1 x2 x3 k d' := by
  rw [val_main_call1_v1_apply, val_main_call1_cst_apply]
  have e : ∀ d' : Fin 256, idx_main_call1_v1 (ix1 k) d' = ix2 k d' := fun d' => funext fun a => by
    match a with
    | ⟨0, _⟩ => rfl
    | ⟨1, _⟩ => rfl
  rw [Finset.sum_congr rfl fun d' _ => by rw [e d', val_main_call1_v0_apply, colNormalize_eq]]
  exact (congrArg (· + _) Ideal.ofBits_zero_f32).trans (zero_add _)

/-- The second normalisation: each row by the root of its sum of squares, floored. -/
theorem rowNormalize_eq (k : Fin 64) (d : Fin 256) :
    val_main_v31 (F := Ideal) x0 x1 x2 x3 (ix2 k d) = rowNormalize eps (cnm x0 x1 x2 x3) k d := by
  rw [val_main_v31_apply, val_main_v30_apply, val_main_v29_apply, val_main_v27_apply, val_main_call1_v2_apply,
    val_main_v28_apply, val_main_cst_4_apply]
  have e : idx_main_call1_v2 (idx_main_v30 (ix2 k d)) = ix1 k := funext fun a => by
    match a with
    | ⟨0, _⟩ => rfl
  rw [e, rowSq_eq, colNormalize_eq]
  rw [Ideal.hostDivf_def, Ideal.maximumf_def, Ideal.hostUnary_sqrt_def, Ideal.ofBits_def]
  rfl

end Stages

/-- The reference's last stage is the aggregation of the arguments. -/
theorem result_eq (x0 : (⟨S1x256x512x512, .f32⟩ : BufTy).Contents (Elt Ideal)) (x1 x2 : (⟨S64x256, .f32⟩ : BufTy).Contents (Elt Ideal))
    (x3 : (⟨S64, .f32⟩ : BufTy).Contents (Elt Ideal)) :
    val_main_v31 (F := Ideal) x0 x1 x2 x3 = G shapeCasts_S1x256x512x512_S256x262144 x0 x1 x2 x3 := by
  funext i
  obtain ⟨k, d, rfl⟩ : ∃ (k : Fin 64) (d : Fin 256), i = ix2 k d := ⟨i 0, i 1, eq_ix2 i⟩
  exact rowNormalize_eq x0 x1 x2 x3 k d

end Cert.ReferenceIdeal.RefValue

end
-- ==== Proof.lean ====
/-
  The residual aggregation kernel against its reference, over the extended reals.

  Both programs compute, for 64 clusters, 256 feature coordinates and 262144 positions: the logits (weights times
  features plus bias), their softmax down each position's column, the assignment-weighted sums of the features and
  the total assignment of each cluster, the residual against the centres, and two normalisations (columns, then rows,
  each length floored at the same small constant). The kernel walks the positions in 32 blocks of 8192, keeping the two
  sums in accumulators that start from zero at the first block and finishing at the last; the reference sums over all
  positions at once. A column's softmax reads that column only, so the blocks' soft assignments are the whole
  assignment's blocks; and a sum over all positions is the sum of the 32 block sums, by associativity and
  commutativity of addition alone, which hold on all extended reals — the precondition is never opened. Changes of float
  format are the identity here, both matrix products into zero accumulators are plain sums, and the reference's extra
  maximum against minus infinity changes nothing. The idealised kernel is the kernel's own text (no rewrite), so the
  preservation claim is trivial.
-/
import proofs.«172698_j82549271429466_1_alg».proof.Defs
import proofs.«172698_j82549271429466_1_alg».proof.Proof.Gen.Kernel
import proofs.«172698_j82549271429466_1_alg».proof.Proof.Gen.Kernel.Skeleton
import proofs.«172698_j82549271429466_1_alg».proof.Proof.Gen.Kernel.Launch
import proofs.«172698_j82549271429466_1_alg».proof.Proof.Gen.Kernel.Points
import proofs.«172698_j82549271429466_1_alg».proof.Proof.Gen.Kernel.Frame
import proofs.«172698_j82549271429466_1_alg».proof.Proof.Gen.KernelIdeal
import proofs.«172698_j82549271429466_1_alg».proof.Proof.Gen.KernelIdeal.Skeleton
import proofs.«172698_j82549271429466_1_alg».proof.Proof.Gen.KernelIdeal.Launch
import proofs.«172698_j82549271429466_1_alg».proof.Proof.Gen.KernelIdeal.Points
import proofs.«172698_j82549271429466_1_alg».proof.Proof.Gen.KernelIdeal.Frame
import proofs.«172698_j82549271429466_1_alg».proof.Proof.Gen.ReferenceIdeal
import proofs.«172698_j82549271429466_1_alg».proof.Proof.Gen.Pre_finite_inputs
import proofs.«172698_j82549271429466_1_alg».proof.Proof.Gen.KernelIdeal.Value
import proofs.«172698_j82549271429466_1_alg».proof.Proof.Gen.ReferenceIdeal.Run
import proofs.«172698_j82549271429466_1_alg».proof.Proof.Gen.ReferenceIdeal.Read
import proofs.«172698_j82549271429466_1_alg».proof.Proof.KernelFold
import proofs.«172698_j82549271429466_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- So does the idealised kernel. -/
theorem frame_kernelIdeal : @Cert.frame_KernelIdeal Cert.KernelIdeal.Gen.facts Cert.Pre_finite_inputs.Gen.facts :=
  fun m ρ _ => Cert.KernelIdeal.Gen.frame m ρ

/-- And the reference: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From arguments that agree, the kernel's result array and the reference's are both the aggregation of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
